-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S1000000x51 : Shape := ⟨2, ![1000000, 51]⟩
abbrev S51 : Shape := ⟨1, ![51]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S1000000x51 : S_.BroadcastsInDim S1000000x51 (![] : Fin 0 → Fin S1000000x51.rank)
  reducesTo_S1000000x51_S_d0_1 : S1000000x51.ReducesTo [0, 1] S_
  bcast_S_S51 : S_.BroadcastsInDim S51 (![] : Fin 0 → Fin S51.rank)
  reducesTo_S51_S_d0 : S51.ReducesTo [0] S_

variable [Facts]

def fn {F : FTy → Type} [FloatOps F] (main_arg0 : FVec F S1000000 .f32) (main_arg1 : FVec F S1000000x51 .f32) (main_arg2 : FVec F S51 .f32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S1000000x51 .f32 := Host.absf main_arg1
  let main_cst_0 : FVec F S_ .f32 := constant S_ .f32 0x7F800000#32
  let main_v5 : FVec F S1000000x51 .f32 := broadcastInDim S1000000x51 ![] bcast_S_S1000000x51 main_cst_0
  let main_v6 : IVec S1000000x51 1 := cmpf .olt main_v4 main_v5
  let main_c_1 : IVec S_ 1 := constantI S_ 1 1#1
  let main_v7 : IVec S_ 1 := (fun x v => Host.reduce IntOp.andi x v reducesTo_S1000000x51_S_d0_1 h_S_) main_v6 main_c_1
  let main_v8 : IVec S_ 1 := andi main_v3 main_v7
  let main_v9 : FVec F S51 .f32 := Host.absf main_arg2
  let main_cst_2 : FVec F S_ .f32 := constant S_ .f32 0x7F800000#32
  let main_v10 : FVec F S51 .f32 := broadcastInDim S51 ![] bcast_S_S51 main_cst_2
  let main_v11 : IVec S51 1 := cmpf .olt main_v9 main_v10
  let main_c_3 : IVec S_ 1 := constantI S_ 1 1#1
  let main_v12 : IVec S_ 1 := (fun x v => Host.reduce IntOp.andi x v reducesTo_S51_S_d0 h_S_) main_v11 main_c_3
  let main_v13 : IVec S_ 1 := andi main_v8 main_v12
  main_v13
-- ==== Kernel.lean ====
abbrev S1000000 : Shape := ⟨1, ![1000000]⟩
abbrev S1000000x51 : Shape := ⟨2, ![1000000, 51]⟩
abbrev S51 : Shape := ⟨1, ![51]⟩
abbrev S1000000x1 : Shape := ⟨2, ![1000000, 1]⟩
abbrev S1x51 : Shape := ⟨2, ![1, 51]⟩
abbrev S400x1 : Shape := ⟨2, ![400, 1]⟩
abbrev S400x51 : Shape := ⟨2, ![400, 51]⟩
abbrev S1x1x51 : Shape := ⟨3, ![1, 1, 51]⟩
abbrev S400x51x1 : Shape := ⟨3, ![400, 51, 1]⟩
abbrev S400x51x51 : Shape := ⟨3, ![400, 51, 51]⟩

abbrev nBuf : Space → Nat
  | .hbm => 6
  | .vmem => 7
  | .smem => 0
  | _ => 0

abbrev bufTy : (tb : Table) → Fin (tcTables nBuf tb) → BufTy
  | .hbm, ⟨0, _⟩ => ⟨S1000000, .f32⟩
  | .hbm, ⟨1, _⟩ => ⟨S1000000x51, .f32⟩
  | .hbm, ⟨2, _⟩ => ⟨S51, .f32⟩
  | .hbm, ⟨3, _⟩ => ⟨S1000000x1, .f32⟩
  | .hbm, ⟨4, _⟩ => ⟨S1x51, .f32⟩
  | .hbm, ⟨5, _⟩ => ⟨S1000000x51, .f32⟩
  | .local _ .vmem, ⟨0, _⟩ => ⟨S400x1, .f32⟩
  | .local _ .vmem, ⟨1, _⟩ => ⟨S400x1, .f32⟩
  | .local _ .vmem, ⟨2, _⟩ => ⟨S400x51, .f32⟩
  | .local _ .vmem, ⟨3, _⟩ => ⟨S400x51, .f32⟩
  | .local _ .vmem, ⟨4, _⟩ => ⟨S1x51, .f32⟩
  | .local _ .vmem, ⟨5, _⟩ => ⟨S400x51, .f32⟩
  | .local _ .vmem, ⟨6, _⟩ => ⟨S400x51, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x51 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x51 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x51 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1000000_S1000000x1 : S1000000.ShapeCasts S1000000x1
  shapeCasts_S51_S1x51 : S51.ShapeCasts S1x51
  inb_S400x1_S400x1_0_0 : ∀ a, (![0, 0] : Fin 2 → Nat) a + S400x1.size a ≤ S400x1.size a
  h_S400x1 : 0 < S400x1.numel
  shapeCasts_S400x1_S400x1 : S400x1.ShapeCasts S400x1
  inb_S1x51_S1x51_0_0 : ∀ a, (![0, 0] : Fin 2 → Nat) a + S1x51.size a ≤ S1x51.size a
  h_S1x51 : 0 < S1x51.numel
  shapeCasts_S1x51_S1x51 : S1x51.ShapeCasts S1x51
  broadcasts_S400x1_S400x51 : S400x1.Broadcasts S400x51
  broadcasts_S1x51_S400x51 : S1x51.Broadcasts S400x51
  inb_S400x51_S400x51_0_0 : ∀ a, (![0, 0] : Fin 2 → Nat) a + S400x51.size a ≤ S400x51.size a
  h_S400x51 : 0 < S400x51.numel
  iota_S1x1x51_d2_w32 : S1x1x51.Iotas .tc 32 [2]
  shapeCasts_S400x51_S400x51x1 : S400x51.ShapeCasts S400x51x1
  broadcasts_S400x51x1_S400x51x51 : S400x51x1.Broadcasts S400x51x51
  broadcasts_S1x1x51_S400x51x51 : S1x1x51.Broadcasts S400x51x51
  shapeCasts_S400x51x1_S400x51x1 : S400x51x1.ShapeCasts S400x51x1
  reduces_S400x51x51_S400x51 : S400x51x51.Reduces [1] S400x51
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x1.size a ≤ S1000000x1.size a
  hwx0_0 : ∀ i : grid0.Coords, EltTy.bits .f32 = 32 ∨ (Rect.block (s := S1000000x1) S400x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x51.size a ≤ S1000000x51.size a
  hwx0_1 : ∀ i : grid0.Coords, EltTy.bits .f32 = 32 ∨ (Rect.block (s := S1000000x51) S400x51.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x51.size a ≤ S1x51.size a
  hwx0_2 : ∀ i : grid0.Coords, EltTy.bits .f32 = 32 ∨ (Rect.block (s := S1x51) S1x51.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x51.size a ≤ S1000000x51.size a
  hwx0_3 : ∀ i : grid0.Coords, EltTy.bits .f32 = 32 ∨ (Rect.block (s := S1000000x51) S400x51.size (cc0_transform_3 i) (hinb0_3 i)).WholeWords (EltTy.packing .f32)

variable [Facts₀]

abbrev win0_0 : Pipeline.Window sig grid0 :=
  Pipeline.Window.ofSpec (Memref.whole main_v0) S400x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x51.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x51.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S400x51.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000 : Shape := ⟨1, ![1000000]⟩
abbrev S1000000x51 : Shape := ⟨2, ![1000000, 51]⟩
abbrev S51 : Shape := ⟨1, ![51]⟩
abbrev S1x51 : Shape := ⟨2, ![1, 51]⟩
abbrev S1000000x1 : Shape := ⟨2, ![1000000, 1]⟩
abbrev S_ : Shape := ⟨0, ![]⟩
abbrev S1000000x51x1 : Shape := ⟨3, ![1000000, 51, 1]⟩
abbrev S1000000x51x2 : Shape := ⟨3, ![1000000, 51, 2]⟩

abbrev nBuf : Space → Nat
  | .hbm => 76
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S1000000x51, .f32⟩
  | .hbm, ⟨2, _⟩ => ⟨S51, .f32⟩
  | .hbm, ⟨3, _⟩ => ⟨S1x51, .f32⟩
  | .hbm, ⟨4, _⟩ => ⟨S1000000x1, .f32⟩
  | .hbm, ⟨5, _⟩ => ⟨S1000000x51, .f32⟩
  | .hbm, ⟨6, _⟩ => ⟨S1000000x51, .f32⟩
  | .hbm, ⟨7, _⟩ => ⟨S1000000x51, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1000000x51, .f32⟩
  | .hbm, ⟨12, _⟩ => ⟨S1000000x51, .f32⟩
  | .hbm, ⟨13, _⟩ => ⟨S_, .f32⟩
  | .hbm, ⟨14, _⟩ => ⟨S1000000x51, .f32⟩
  | .hbm, ⟨15, _⟩ => ⟨S1000000x51, .f32⟩
  | .hbm, ⟨16, _⟩ => ⟨S_, .f32⟩
  | .hbm, ⟨17, _⟩ => ⟨S1000000x51, .f32⟩
  | .hbm, ⟨18, _⟩ => ⟨S1000000x51, .f32⟩
  | .hbm, ⟨19, _⟩ => ⟨S_, .f32⟩
  | .hbm, ⟨20, _⟩ => ⟨S1000000x51, .f32⟩
  | .hbm, ⟨21, _⟩ => ⟨S1000000x51, .f32⟩
  | .hbm, ⟨22, _⟩ => ⟨S1000000x51, .f32⟩
  | .hbm, ⟨23, _⟩ => ⟨S1000000x51, .f32⟩
  | .hbm, ⟨24, _⟩ => ⟨S1000000x51, .i1⟩
  | .hbm, ⟨25, _⟩ => ⟨S1000000x51, .f32⟩
  | .hbm, ⟨26, _⟩ => ⟨S_, .f32⟩
  | .hbm, ⟨27, _⟩ => ⟨S_, .f32⟩
  | .hbm, ⟨28, _⟩ => ⟨S1000000x51, .f32⟩
  | .hbm, ⟨29, _⟩ => ⟨S1000000x51, .f32⟩
  | .hbm, ⟨30, _⟩ => ⟨S1000000x51, .f32⟩
  | .hbm, ⟨31, _⟩ => ⟨S1000000x51, .i32⟩
  | .hbm, ⟨32, _⟩ => ⟨S1000000x51, .i32⟩
  | .hbm, ⟨33, _⟩ => ⟨S1000000, .i32⟩
  | .hbm, ⟨34, _⟩ => ⟨S1000000x1, .i32⟩
  | .hbm, ⟨35, _⟩ => ⟨S1000000x51, .i32⟩
  | .hbm, ⟨36, _⟩ => ⟨S_, .f32⟩
  | .hbm, ⟨37, _⟩ => ⟨S1000000x51, .f32⟩
  | .hbm, ⟨38, _⟩ => ⟨S1000000x51, .f32⟩
  | .hbm, ⟨39, _⟩ => ⟨S_, .i32⟩
  | .hbm, ⟨40, _⟩ => ⟨S1000000x51, .i32⟩
  | .hbm, ⟨41, _⟩ => ⟨S1000000x51, .i1⟩
  | .hbm, ⟨42, _⟩ => ⟨S_, .i32⟩
  | .hbm, ⟨43, _⟩ => ⟨S1000000x51, .i32⟩
  | .hbm, ⟨44, _⟩ => ⟨S1000000x51, .i32⟩
  | .hbm, ⟨45, _⟩ => ⟨S1000000x51, .i32⟩
  | .hbm, ⟨46, _⟩ => ⟨S_, .i32⟩
  | .hbm, ⟨47, _⟩ => ⟨S1000000x51, .i32⟩
  | .hbm, ⟨48, _⟩ => ⟨S1000000x51, .i1⟩
  | .hbm, ⟨49, _⟩ => ⟨S_, .i32⟩
  | .hbm, ⟨50, _⟩ => ⟨S1000000x51, .i32⟩
  | .hbm, ⟨51, _⟩ => ⟨S1000000x51, .i32⟩
  | .hbm, ⟨52, _⟩ => ⟨S1000000x51, .i32⟩
  | .hbm, ⟨53, _⟩ => ⟨S1000000x51x1, .i32⟩
  | .hbm, ⟨54, _⟩ => ⟨S1000000x51x1, .i32⟩
  | .hbm, ⟨55, _⟩ => ⟨S1000000x51x2, .i32⟩
  | .hbm, ⟨56, _⟩ => ⟨S1000000x51, .f32⟩
  | .hbm, ⟨57, _⟩ => ⟨S1000000x51, .f32⟩
  | .hbm, ⟨58, _⟩ => ⟨S_, .i32⟩
  | .hbm, ⟨59, _⟩ => ⟨S1000000x51, .i32⟩
  | .hbm, ⟨60, _⟩ => ⟨S1000000x51, .i1⟩
  | .hbm, ⟨61, _⟩ => ⟨S_, .i32⟩
  | .hbm, ⟨62, _⟩ => ⟨S1000000x51, .i32⟩
  | .hbm, ⟨63, _⟩ => ⟨S1000000x51, .i32⟩
  | .hbm, ⟨64, _⟩ => ⟨S1000000x51, .i32⟩
  | .hbm, ⟨65, _⟩ => ⟨S_, .i32⟩
  | .hbm, ⟨66, _⟩ => ⟨S1000000x51, .i32⟩
  | .hbm, ⟨67, _⟩ => ⟨S1000000x51, .i1⟩
  | .hbm, ⟨68, _⟩ => ⟨S_, .i32⟩
  | .hbm, ⟨69, _⟩ => ⟨S1000000x51, .i32⟩
  | .hbm, ⟨70, _⟩ => ⟨S1000000x51, .i32⟩
  | .hbm, ⟨71, _⟩ => ⟨S1000000x51, .i32⟩
  | .hbm, ⟨72, _⟩ => ⟨S1000000x51x1, .i32⟩
  | .hbm, ⟨73, _⟩ => ⟨S1000000x51x1, .i32⟩
  | .hbm, ⟨74, _⟩ => ⟨S1000000x51x2, .i32⟩
  | .hbm, ⟨75, _⟩ => ⟨S1000000x51, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_c : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_c_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]

class Facts₀ : Prop where
  bcast_S51_S1x51_1 : S51.BroadcastsInDim S1x51 (![1] : Fin 1 → Fin S1x51.rank)
  bcast_S1000000_S1000000x1_0 : S1000000.BroadcastsInDim S1000000x1 (![0] : Fin 1 → Fin S1000000x1.rank)
  bcast_S1x51_S1000000x51_0_1 : S1x51.BroadcastsInDim S1000000x51 (![0, 1] : Fin 2 → Fin S1000000x51.rank)
  bcast_S1000000x1_S1000000x51_0_1 : S1000000x1.BroadcastsInDim S1000000x51 (![0, 1] : Fin 2 → Fin S1000000x51.rank)
  bcast_S_S1000000x51 : S_.BroadcastsInDim S1000000x51 (![] : Fin 0 → Fin S1000000x51.rank)
  bcast_S1000000x51_S1000000x51x1_0_1 : S1000000x51.BroadcastsInDim S1000000x51x1 (![0, 1] : Fin 2 → Fin S1000000x51x1.rank)
  concatenates_S1000000x51x1_S1000000x51x1_S1000000x51x2_d2 : Shape.Concatenates [S1000000x51x1, S1000000x51x1] S1000000x51x2 2
  scatter_S1000000x51_S1000000x51x2_S1000000x51_n_01_01_2_wf : ScatterDims.WF S1000000x51 S1000000x51x2 S1000000x51 [] [0, 1] [0, 1] 2

variable [Facts₀]

def scatter_S1000000x51_S1000000x51x2_S1000000x51_n_01_01_2 : ScatterDims S1000000x51 S1000000x51x2 S1000000x51 where
  updateWindowDims := []
  insertedWindowDims := [0, 1]
  scatterDimsToOperandDims := [0, 1]
  indexVectorDim := 2
  wf := scatter_S1000000x51_S1000000x51x2_S1000000x51_n_01_01_2_wf

class Facts : Prop extends Facts₀ where

variable [Facts]
-- ==== Proof.Spec.lean ====
/-
  The categorical projection of a shifted, clamped support onto the fixed support, as ONE function of the three
  argument arrays, index by index, over the extended reals.

  For a row with reward x and a source atom with value y, the shifted atom x + y is clamped into [lo, hi] and its
  fractional position on the support is pos = (clamp (x + y) - lo) / step. The atom's probability mass p is split
  between the two neighbouring bins: the bin below, floor pos, receives p times (ceil pos - pos) — or p itself when
  pos is a whole number, where floor and ceil coincide — and the bin above, ceil pos, receives p times
  (pos - floor pos). The result at (row, bin j) is the sum over the 51 source atoms of the mass sent to j from below
  plus the sum of the mass sent to j from above. A source atom contributes to bin j exactly when its bin, as a
  32-bit word, is the word j; every other atom contributes the zero word's value.
-/
import Idealize.ShloMosaic.Lib.ValueIdx
import Idealize.ShloMosaic.PureOps.Ideal

noncomputable section

namespace Cert.Projection

open Idealize.ShloMosaic Idealize.ShloMosaic.ValueIdx

/-- The support's lower end, its upper end, the spacing of its atoms, one and zero: the values of the five f32 words
    both programs carry. -/
abbrev lo : EReal := Ideal.ofBits .f32 0xC1200000#32
abbrev hi : EReal := Ideal.ofBits .f32 0x41200000#32
abbrev step : EReal := Ideal.ofBits .f32 0x3ECCCCCD#32
abbrev unit : EReal := Ideal.ofBits .f32 0x3F800000#32
abbrev nought : EReal := Ideal.ofBits .f32 0x00000000#32

/-- The fractional position on the support of the atom y shifted by the reward x and clamped into [lo, hi]. -/
def pos (x y : EReal) : EReal := Ideal.div (min hi (max lo (x + y)) - lo) step
/-- The whole positions just below and just above it, -/
def below (x y : EReal) : EReal := Ideal.liftRound Int.floor (pos x y)
def above (x y : EReal) : EReal := Ideal.liftRound Int.ceil (pos x y)
/-- those two as 32-bit words (the bins), -/
def binBelow (x y : EReal) : BitVec 32 := Ideal.fptosi 32 (below x y)
def binAbove (x y : EReal) : BitVec 32 := Ideal.fptosi 32 (above x y)
/-- and the share of the mass each of the two bins receives: all of it goes below when the position is whole. -/
def shareBelow (x y : EReal) : EReal :=
  Scalar.select (Ideal.cmp .oeq (below x y) (above x y)) unit (above x y - pos x y)
def shareAbove (x y : EReal) : EReal := pos x y - below x y

/-- The projected distribution: at (row r, bin j) the mass the 51 source atoms of row r send to bin j from below,
    plus the mass they send to it from above. -/
def G (reward : FVec Ideal ⟨1, ![1000000]⟩ .f32) (probs : FVec Ideal ⟨2, ![1000000, 51]⟩ .f32)
    (atoms : FVec Ideal ⟨1, ![51]⟩ .f32) : FVec Ideal ⟨2, ![1000000, 51]⟩ .f32 := fun i =>
  (∑ a : Fin 51, Scalar.select
      (IntOp.cmpi .eq (binBelow (reward (ix1 (i 0 : Fin 1000000))) (atoms (ix1 a))) (BitVec.ofNat 32 (i 1 : Fin 51).val))
      (probs (ix2 (i 0 : Fin 1000000) a) * shareBelow (reward (ix1 (i 0 : Fin 1000000))) (atoms (ix1 a))) nought)
  + (∑ a : Fin 51, Scalar.select
      (IntOp.cmpi .eq (binAbove (reward (ix1 (i 0 : Fin 1000000))) (atoms (ix1 a))) (BitVec.ofNat 32 (i 1 : Fin 51).val))
      (probs (ix2 (i 0 : Fin 1000000) a) * shareAbove (reward (ix1 (i 0 : Fin 1000000))) (atoms (ix1 a))) nought)

/-- The same at explicit coordinates. -/
theorem G_apply (reward : FVec Ideal ⟨1, ![1000000]⟩ .f32) (probs : FVec Ideal ⟨2, ![1000000, 51]⟩ .f32)
    (atoms : FVec Ideal ⟨1, ![51]⟩ .f32) (r : Fin 1000000) (j : Fin 51) :
    G reward probs atoms (ix2 r j)
      = (∑ a : Fin 51, Scalar.select
            (IntOp.cmpi .eq (binBelow (reward (ix1 r)) (atoms (ix1 a))) (BitVec.ofNat 32 j.val))
            (probs (ix2 r a) * shareBelow (reward (ix1 r)) (atoms (ix1 a))) nought)
        + (∑ a : Fin 51, Scalar.select
            (IntOp.cmpi .eq (binAbove (reward (ix1 r)) (atoms (ix1 a))) (BitVec.ofNat 32 j.val))
            (probs (ix2 r a) * shareAbove (reward (ix1 r)) (atoms (ix1 a))) nought) := rfl

end Cert.Projection

end
-- ==== Proof.KernelBlock.lean ====
/-
  The projection kernel's body read at one element of its block.

  A block is 400 consecutive rows. The body receives the rows' rewards as a column x0 : [400, 1], their probability
  rows x1 : [400, 51] and the 51 atom values as a row x2 : [1, 51]. For row p and source atom a it forms the
  fractional position of the shifted, clamped atom, pos (x0 p) (x2 a), its floor and ceiling, the two bins and the two
  shares of the mass x1 p a. The scatter of the mass into the target bins is written as a sum: the three-axis
  array indexed (row p, source atom a, target bin j) holds the mass when the atom's bin, as a 32-bit word, is the
  word j and zero otherwise, and summing over the middle axis gives the mass bin j receives. It is done once for
  the bins below and once for the bins above, and the two are added.

  Here each layout step is read at an index: a column repeated along the lanes, a row repeated down the rows,
  the [400, 51] arrays given a trailing unit axis and repeated along the target axis, the target index as a
  coordinate, and the sum over the middle axis as a sum over the 51 source atoms. Put together, the body's value at
  (p, j) is the specification's value at (r, j) for whichever row r of the whole arrays the block's row p is.
-/
import proofs.«136241_j42563125903609_1_alg».proof.Proof.Gen.KernelIdeal.Skeleton
import proofs.«136241_j42563125903609_1_alg».proof.Proof.Spec
import Idealize.ShloMosaic.Lib.Pipeline.Value
import Idealize.ShloMosaic.Lib.ValueIdx
import Idealize.ShloMosaic.PureOps.Ideal.Laws

noncomputable section

namespace Cert.KernelIdeal.Whole

open Idealize.ShloMosaic Idealize.ShloMosaic.ValueIdx
open Cert.KernelIdeal Cert.KernelIdeal.Gen

/-! ## The layout steps at an index -/

section Layout
variable {α : Type}

/-- A column of 400 entries repeated along 51 lanes: entry (p, a) is the column's entry p. -/
theorem column_apply (v : S400x1.Idx → α) (h : S400x1.Broadcasts S400x51) (p : Fin 400) (a : Fin 51) :
    broadcastTo S400x51 v h (ix2 p a) = v (ix2 p (0 : Fin 1)) :=
  broadcastTo_apply v h (ix2 p a) (ix2 p (0 : Fin 1)) fun ax =>
    match ax with
    | ⟨0, _⟩ => rfl
    | ⟨1, _⟩ => rfl

/-- A row of 51 entries repeated down 400 rows: entry (p, a) is the row's entry a. -/
theorem row_apply (v : S1x51.Idx → α) (h : S1x51.Broadcasts S400x51) (p : Fin 400) (a : Fin 51) :
    broadcastTo S400x51 v h (ix2 p a) = v (ix2 (0 : Fin 1) a) :=
  broadcastTo_apply v h (ix2 p a) (ix2 (0 : Fin 1) a) fun ax =>
    match ax with
    | ⟨0, _⟩ => rfl
    | ⟨1, _⟩ => rfl

/-- A [400, 51] array given a trailing unit axis: entry (p, a, 0) is entry (p, a). -/
theorem trailing_apply (v : S400x51.Idx → α) (h : S400x51.ShapeCasts S400x51x1) (p : Fin 400) (a : Fin 51) (z : Fin 1) :
    shapeCast S400x51x1 v h (ix3 p a z) = v (ix2 p a) :=
  shapeCast_apply v h (ix3 p a z) (ix2 p a) (by
    have hz : z.val = 0 := by omega
    rw [Shape.rowMajor_val_two, Shape.rowMajor_val_three]
    show p.val * 51 + a.val = (p.val * 51 + a.val) * 1 + z.val
    omega)

/-- A [400, 51, 1] array repeated along 51 target bins: entry (p, a, j) is entry (p, a, 0). -/
theorem targets_apply (v : S400x51x1.Idx → α) (h : S400x51x1.Broadcasts S400x51x51) (p : Fin 400) (a j : Fin 51) :
    broadcastTo S400x51x51 v h (ix3 p a j) = v (ix3 p a (0 : Fin 1)) :=
  broadcastTo_apply v h (ix3 p a j) (ix3 p a (0 : Fin 1)) fun ax =>
    match ax with
    | ⟨0, _⟩ => rfl
    | ⟨1, _⟩ => rfl
    | ⟨2, _⟩ => rfl

/-- A [1, 1, 51] array repeated over the rows and the source atoms: entry (p, a, j) is entry (0, 0, j). -/
theorem bins_apply (v : S1x1x51.Idx → α) (h : S1x1x51.Broadcasts S400x51x51) (p : Fin 400) (a j : Fin 51) :
    broadcastTo S400x51x51 v h (ix3 p a j) = v (ix3 (0 : Fin 1) (0 : Fin 1) j) :=
  broadcastTo_apply v h (ix3 p a j) (ix3 (0 : Fin 1) (0 : Fin 1) j) fun ax =>
    match ax with
    | ⟨0, _⟩ => rfl
    | ⟨1, _⟩ => rfl
    | ⟨2, _⟩ => rfl

/-- The two together: a [400, 51] array spread over the target bins reads (p, a) at every (p, a, j). -/
theorem spread_apply (v : S400x51.Idx → α) (h : S400x51.ShapeCasts S400x51x1) (h' : S400x51x1.Broadcasts S400x51x51)
    (p : Fin 400) (a j : Fin 51) :
    broadcastTo S400x51x51 (shapeCast S400x51x1 v h) h' (ix3 p a j) = v (ix2 p a) :=
  (targets_apply _ h' p a j).trans (trailing_apply v h p a 0)

/-- The target bin's number along the last axis, as a 32-bit word. -/
theorem binWord_apply (h : S1x1x51.Iotas .tc 32 [2]) (u w : Fin 1) (j : Fin 51) :
    iota .tc S1x1x51 32 [2] h (ix3 u w j) = BitVec.ofNat 32 j.val :=
  iota_single_apply .tc S1x1x51 32 2 h (ix3 u w j)

end Layout

/-- The sum over the middle axis of a [400, 51, 51] array, at (p, j): the sum over the 51 source atoms a of entry
    (p, a, j). Nothing is added to it. -/
theorem atomSum_apply (v : FVec Ideal S400x51x51 .f32) (h : S400x51x51.Reduces [1] S400x51) (hφ : FKind.Formats .f32)
    (hacc : (0x00000000#32 : BitVec 32) = FKind.add.neutral .f32 hφ) (p : Fin 400) (j : Fin 51) :
    multiReduction .add [1] S400x51 v 0x00000000#32 h hφ hacc (ix2 p j) = ∑ a : Fin 51, v (ix3 p a j) := by
  refine (Ideal.multiReduction_add_single v 0x00000000#32 h hφ hacc (ix2 p j)).trans ?_
  refine Finset.sum_congr rfl fun a _ => congrArg v ?_
  funext d
  match d with
  | ⟨0, _⟩ => rfl
  | ⟨1, _⟩ => rfl
  | ⟨2, _⟩ => rfl

/-- THE SCATTER AS A SUM. Given each (row, source atom)'s bin as a 32-bit word and its mass, put the mass at
    (p, a, j) when the bin of (p, a) is the word j and the value zero otherwise, and sum over a: the result at (p, j)
    is the sum over the 51 source atoms of row p of the mass of those whose bin is j. -/
theorem scatter_apply (bins : IVec S400x51 32) (mass : FVec Ideal S400x51 .f32) (zero : Ideal .f32)
    (h1 : S400x51.ShapeCasts S400x51x1) (h2 : S400x51x1.Broadcasts S400x51x51) (h3 : S1x1x51.Iotas .tc 32 [2])
    (h4 : S1x1x51.Broadcasts S400x51x51) (h5 : S400x51x1.ShapeCasts S400x51x1) (h6 : S400x51x51.Reduces [1] S400x51)
    (hφ : FKind.Formats .f32) (hacc : (0x00000000#32 : BitVec 32) = FKind.add.neutral .f32 hφ) (p : Fin 400) (j : Fin 51) :
    multiReduction .add [1] S400x51
        (select (cmpi .eq (broadcastTo S400x51x51 (shapeCast S400x51x1 bins h1) h2)
                          (broadcastTo S400x51x51 (iota .tc S1x1x51 32 [2] h3) h4))
                (broadcastTo S400x51x51 (shapeCast S400x51x1 (shapeCast S400x51x1 mass h1) h5) h2)
                (broadcast S400x51x51 zero))
        0x00000000#32 h6 hφ hacc (ix2 p j)
      = ∑ a : Fin 51, Scalar.select (IntOp.cmpi .eq (bins (ix2 p a)) (BitVec.ofNat 32 j.val)) (mass (ix2 p a)) zero := by
  refine (atomSum_apply _ h6 hφ hacc p j).trans (Finset.sum_congr rfl fun a _ => ?_)
  have eb : broadcastTo S400x51x51 (shapeCast S400x51x1 bins h1) h2 (ix3 p a j) = bins (ix2 p a) :=
    spread_apply bins h1 h2 p a j
  have ew : broadcastTo S400x51x51 (iota .tc S1x1x51 32 [2] h3) h4 (ix3 p a j) = BitVec.ofNat 32 j.val :=
    (bins_apply _ h4 p a j).trans (binWord_apply h3 0 0 j)
  have em : broadcastTo S400x51x51 (shapeCast S400x51x1 (shapeCast S400x51x1 mass h1) h5) h2 (ix3 p a j) = mass (ix2 p a) := by
    rw [shapeCast_self]; exact spread_apply mass h1 h2 p a j
  show Scalar.select (IntOp.cmpi .eq (broadcastTo S400x51x51 (shapeCast S400x51x1 bins h1) h2 (ix3 p a j))
        (broadcastTo S400x51x51 (iota .tc S1x1x51 32 [2] h3) h4 (ix3 p a j)))
      (broadcastTo S400x51x51 (shapeCast S400x51x1 (shapeCast S400x51x1 mass h1) h5) h2 (ix3 p a j)) zero = _
  rw [eb, ew, em]

/-! ## The body's intermediate values at an index -/

section Body
variable (x0 : FVec Ideal S400x1 .f32) (x1 : FVec Ideal S400x51 .f32) (x2 : FVec Ideal S1x51 .f32)

/-- The fractional position of source atom a of row p. -/
theorem position_apply (p : Fin 400) (a : Fin 51) :
    k0_pay2 (F := Ideal) x0 x2 (ix2 p a) = Projection.pos (x0 (ix2 p (0 : Fin 1))) (x2 (ix2 (0 : Fin 1) a)) := by
  have e0 : broadcastTo S400x51 (shapeCast S400x1 x0 shapeCasts_S400x1_S400x1) broadcasts_S400x1_S400x51 (ix2 p a)
      = x0 (ix2 p (0 : Fin 1)) := by
    rw [shapeCast_self]; exact column_apply x0 _ p a
  have e2 : broadcastTo S400x51 (shapeCast S1x51 x2 shapeCasts_S1x51_S1x51) broadcasts_S1x51_S400x51 (ix2 p a)
      = x2 (ix2 (0 : Fin 1) a) := by
    rw [shapeCast_self]; exact row_apply x2 _ p a
  unfold k0_pay2 Projection.pos
  exact congrArg₂ (fun u w : EReal =>
    Ideal.div (min Projection.hi (max Projection.lo (u + w)) - Projection.lo) Projection.step) e0 e2

/-- Its floor and its ceiling. -/
theorem below_apply (p : Fin 400) (a : Fin 51) :
    k0_pay3 (F := Ideal) x0 x2 (ix2 p a) = Projection.below (x0 (ix2 p (0 : Fin 1))) (x2 (ix2 (0 : Fin 1) a)) :=
  congrArg (Ideal.liftRound Int.floor) (position_apply x0 x2 p a)

theorem above_apply (p : Fin 400) (a : Fin 51) :
    k0_pay4 (F := Ideal) x0 x2 (ix2 p a) = Projection.above (x0 (ix2 p (0 : Fin 1))) (x2 (ix2 (0 : Fin 1) a)) :=
  congrArg (Ideal.liftRound Int.ceil) (position_apply x0 x2 p a)

/-- The mass bin j of row p receives from the atoms whose lower bin it is. -/
theorem lowerMass_apply (p : Fin 400) (j : Fin 51) :
    k0_pay5 (F := Ideal) x0 x2 x1 (ix2 p j)
      = ∑ a : Fin 51, Scalar.select
          (IntOp.cmpi .eq (Projection.binBelow (x0 (ix2 p (0 : Fin 1))) (x2 (ix2 (0 : Fin 1) a))) (BitVec.ofNat 32 j.val))
          (x1 (ix2 p a) * Projection.shareBelow (x0 (ix2 p (0 : Fin 1))) (x2 (ix2 (0 : Fin 1) a))) Projection.nought := by
  unfold k0_pay5
  refine (scatter_apply _ _ _ _ _ _ _ _ _ _ _ p j).trans (Finset.sum_congr rfl fun a _ => ?_)
  show Scalar.select (IntOp.cmpi .eq (Ideal.fptosi 32 (k0_pay3 (F := Ideal) x0 x2 (ix2 p a))) (BitVec.ofNat 32 j.val))
      (x1 (ix2 p a) * Scalar.select (Ideal.cmp .oeq (k0_pay3 (F := Ideal) x0 x2 (ix2 p a)) (k0_pay4 (F := Ideal) x0 x2 (ix2 p a)))
        (Ideal.ofBits .f32 0x3F800000#32) (k0_pay4 (F := Ideal) x0 x2 (ix2 p a) - k0_pay2 (F := Ideal) x0 x2 (ix2 p a)))
      (Ideal.ofBits .f32 0x00000000#32) = _
  rw [below_apply, above_apply, position_apply]
  rfl

/-- THE BODY'S RESULT at (p, j): the mass bin j of row p receives from below plus the mass it receives from above,
    each a sum over the 51 source atoms of the row. -/
theorem body_apply (p : Fin 400) (j : Fin 51) :
    k0_pay1 (F := Ideal) (k0_pay5 (F := Ideal) x0 x2 x1) (k0_pay6 (F := Ideal) x0 x2) (Scalar.ofBits .f32 0x00000000#32) (k0_pay7 (F := Ideal) x0 x2 x1) (ix2 p j)
      = (∑ a : Fin 51, Scalar.select
            (IntOp.cmpi .eq (Projection.binBelow (x0 (ix2 p (0 : Fin 1))) (x2 (ix2 (0 : Fin 1) a))) (BitVec.ofNat 32 j.val))
            (x1 (ix2 p a) * Projection.shareBelow (x0 (ix2 p (0 : Fin 1))) (x2 (ix2 (0 : Fin 1) a))) Projection.nought)
        + (∑ a : Fin 51, Scalar.select
            (IntOp.cmpi .eq (Projection.binAbove (x0 (ix2 p (0 : Fin 1))) (x2 (ix2 (0 : Fin 1) a))) (BitVec.ofNat 32 j.val))
            (x1 (ix2 p a) * Projection.shareAbove (x0 (ix2 p (0 : Fin 1))) (x2 (ix2 (0 : Fin 1) a))) Projection.nought) := by
  unfold k0_pay1 k0_pay6 k0_pay7
  refine (addf_apply _ _ _).trans (congrArg₂ (· + ·) (lowerMass_apply x0 x1 x2 p j) ?_)
  refine (scatter_apply _ _ _ _ _ _ _ _ _ _ _ p j).trans (Finset.sum_congr rfl fun a _ => ?_)
  show Scalar.select (IntOp.cmpi .eq (Ideal.fptosi 32 (k0_pay4 (F := Ideal) x0 x2 (ix2 p a))) (BitVec.ofNat 32 j.val))
      (x1 (ix2 p a) * (k0_pay2 (F := Ideal) x0 x2 (ix2 p a) - k0_pay3 (F := Ideal) x0 x2 (ix2 p a)))
      (Ideal.ofBits .f32 0x00000000#32) = _
  rw [below_apply, above_apply, position_apply]
  rfl

/-- So, when the block's row p is row r of the whole arrays — the column's entry p the reward of row r, the block's
    row p the probabilities of row r, the row of atom values the atom values — the body's result at (p, j) is the
    projected distribution at (r, j). -/
theorem result_eq_projection (reward : FVec Ideal S1000000 .f32) (probs : FVec Ideal S1000000x51 .f32)
    (atoms : FVec Ideal S51 .f32) (p : Fin 400) (j : Fin 51) (r : Fin 1000000)
    (h0 : x0 (ix2 p (0 : Fin 1)) = reward (ix1 r)) (h1 : ∀ a : Fin 51, x1 (ix2 p a) = probs (ix2 r a))
    (h2 : ∀ a : Fin 51, x2 (ix2 (0 : Fin 1) a) = atoms (ix1 a)) :
    k0_pay1 (F := Ideal) (k0_pay5 (F := Ideal) x0 x2 x1) (k0_pay6 (F := Ideal) x0 x2) (Scalar.ofBits .f32 0x00000000#32) (k0_pay7 (F := Ideal) x0 x2 x1) (ix2 p j)
      = Projection.G reward probs atoms (ix2 r j) := by
  rw [Projection.G_apply, body_apply x0 x1 x2 p j, h0]
  simp only [h1, h2]

end Body

end Cert.KernelIdeal.Whole

end
-- ==== Proof.KernelReads.lean ====
/-
  The three input blocks of a grid point read at a coordinate, as entries of the argument arrays.

  The grid has 2500 points; point t works on rows 400 t … 400 t + 399 of the one million rows. Its reward block is
  the [400, 1] block with block index (t, 0) of the rewards laid out as a column [1000000, 1], its probability block
  the [400, 51] block with block index (t, 0) of the probabilities, and its atom block the whole [1, 51] row of atom
  values, block index (0, 0), at every point. A block's entry y sits in the array at block index × block size + y on
  each axis.

  The column of rewards and the row of atom values are not arguments themselves: they are the one-axis arguments
  re-laid in row-major order, [1000000] as [1000000, 1] and [51] as [1, 51], before the grid runs. Entry (r, 0) of the
  column is entry r of the rewards and entry (0, a) of the row is entry a of the atom values, since in each case the two
  have the same row-major position.
-/
import proofs.«136241_j42563125903609_1_alg».proof.Proof.Gen.KernelIdeal.Frame
import Idealize.ShloMosaic.Lib.Pipeline.Value
import Idealize.ShloMosaic.Lib.ValueIdx

noncomputable section

namespace Cert.KernelIdeal.Whole

open Idealize.ShloMosaic Idealize.ShloMosaic.TcCoe Idealize.SL.Sem Idealize.ShloMosaic.ValueIdx
open Cert.KernelIdeal Cert.KernelIdeal.Gen

/-! ## The re-laid arguments at an index -/

section Relaid
variable {α : Type}

/-- One million entries laid out as a column: the entry at (r, 0) is entry r. -/
theorem column_of_apply (v : S1000000.Idx → α) (h : S1000000.ShapeCasts S1000000x1) (i : S1000000x1.Idx)
    (r : Fin 1000000) (hr : (i 0).val = r.val) : shapeCast S1000000x1 v h i = v (ix1 r) :=
  shapeCast_apply v h i (ix1 r) (by
    have h1 : (i 1).val < 1 := idx2_lt1 i
    rw [Shape.rowMajor_val_one, Shape.rowMajor_val_two]
    show r.val = (i 0).val * 1 + (i 1).val
    omega)

/-- Fifty-one entries laid out as a row: the entry at (0, a) is entry a. -/
theorem row_of_apply (v : S51.Idx → α) (h : S51.ShapeCasts S1x51) (i : S1x51.Idx)
    (a : Fin 51) (ha : (i 1).val = a.val) : shapeCast S1x51 v h i = v (ix1 a) :=
  shapeCast_apply v h i (ix1 a) (by
    have h0 : (i 0).val < 1 := idx2_lt0 i
    rw [Shape.rowMajor_val_one, Shape.rowMajor_val_two]
    show a.val = (i 0).val * 51 + (i 1).val
    omega)

/-- An entry of a [1000000, 51] array named by its two coordinates. -/
theorem entry_eq (v : S1000000x51.Idx → α) (i : S1000000x51.Idx) (r : Fin 1000000) (a : Fin 51)
    (h0 : (i 0).val = r.val) (h1 : (i 1).val = a.val) : v i = v (ix2 r a) :=
  congrArg v (funext fun ax => Fin.ext (match ax with | ⟨0, _⟩ => h0 | ⟨1, _⟩ => h1))

end Relaid

variable (m : (ℓ : Loc nD τ sig) → Buf (Elt Ideal) ℓ)

/-! ## What the grid finds in the two re-laid arrays -/

/-- The column the reward window is cut from is the rewards re-laid [1000000] → [1000000, 1]; -/
theorem stagedReward (c : Dev nD) :
    (V m c main_v0 : S1000000x1.Idx → EReal)
      = shapeCast S1000000x1 (m ((c : Thread nD τ).loc main_arg0)) shapeCasts_S1000000_S1000000x1 := by
  dsimp only [Gen.V, Gen.hostOps0]
  after_results
  rfl

/-- the row the atom window is cut from is the atom values re-laid [51] → [1, 51]. -/
theorem stagedAtoms (c : Dev nD) :
    (V m c main_v1 : S1x51.Idx → EReal)
      = shapeCast S1x51 (m ((c : Thread nD τ).loc main_arg2)) shapeCasts_S51_S1x51 := by
  dsimp only [Gen.V, Gen.hostOps0]
  after_results
  rfl

/-! ## The block indices, point by point -/

/-- The reward window's block index at point t is (t, 0), -/
theorem rewardIdx : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- the probability window's likewise, -/
theorem probsIdx : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- and the atom window's is (0, 0) at every point. -/
theorem atomsIdx : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-! ## The blocks at a coordinate -/

/-- The row of the whole arrays that row p of block t is: 400 t + p. -/
def rowOf (t : Fin cfg0.N) (p : Fin 400) : Fin 1000000 :=
  ⟨400 * t.val + p.val, by have := t.isLt; have : cfg0.N = 2500 := N_0; omega⟩

theorem rowOf_val (t : Fin cfg0.N) (p : Fin 400) : (rowOf t p).val = 400 * t.val + p.val := rfl

/-- Entry p of point t's reward block is the reward of row 400 t + p. -/
theorem rewardBlock_apply (c : Dev nD) (t : Fin cfg0.N) (p : Fin 400) :
    iblk m c 0 t (ix2 p (0 : Fin 1)) = m ((c : Thread nD τ).loc main_arg0) (ix1 (rowOf t p)) := by
  unfold iblk
  rw [View.read_apply]
  show (V m c main_v0 : S1000000x1.Idx → EReal) (((cfg0.win 0).blk t).view.emb (ix2 p (0 : Fin 1))) = _
  rw [stagedReward]
  refine column_of_apply _ _ _ (rowOf t p) ?_
  show win0_0.index t (0 : Fin 2) * 400 + 1 * p.val = 400 * t.val + p.val
  rw [(rewardIdx t).1]
  omega

/-- Entry (p, a) of point t's probability block is the probability of atom a in row 400 t + p. -/
theorem probsBlock_apply (c : Dev nD) (t : Fin cfg0.N) (p : Fin 400) (a : Fin 51) :
    iblk m c 1 t (ix2 p a) = m ((c : Thread nD τ).loc main_arg1) (ix2 (rowOf t p) a) := by
  unfold iblk
  rw [View.read_apply]
  show (V m c main_arg1 : S1000000x51.Idx → EReal) (((cfg0.win 1).blk t).view.emb (ix2 p a)) = _
  rw [V_main_arg1]
  refine entry_eq _ _ (rowOf t p) a ?_ ?_
  · show win0_1.index t (0 : Fin 2) * 400 + 1 * p.val = 400 * t.val + p.val
    rw [(probsIdx t).1]
    omega
  · show win0_1.index t (1 : Fin 2) * 51 + 1 * a.val = a.val
    rw [(probsIdx t).2]
    omega

/-- Entry (0, a) of the atom block, at every point, is atom value a. -/
theorem atomsBlock_apply (c : Dev nD) (t : Fin cfg0.N) (a : Fin 51) :
    iblk m c 2 t (ix2 (0 : Fin 1) a) = m ((c : Thread nD τ).loc main_arg2) (ix1 a) := by
  unfold iblk
  rw [View.read_apply]
  show (V m c main_v1 : S1x51.Idx → EReal) (((cfg0.win 2).blk t).view.emb (ix2 (0 : Fin 1) a)) = _
  rw [stagedAtoms]
  refine row_of_apply _ _ _ a ?_
  show win0_2.index t (1 : Fin 2) * 51 + 1 * a.val = a.val
  rw [(atomsIdx t).2]
  omega

end Cert.KernelIdeal.Whole

end
-- ==== Proof.KernelArray.lean ====
/-
  From blocks to the array, and the kernel's run. The grid has 2500 points; point t reads rows 400 t … 400 t + 399
  of the reward column and of the probability matrix, and the whole row of atom values, and writes back rows
  400 t … 400 t + 399 of the result. What it writes back at (p, j) is the body's result at (p, j) of those three
  blocks, which is the projected distribution at (400 t + p, j) of the three argument arrays: point t writes block t
  of ONE function of the arguments. Since 1000000 = 2500 · 400, the 2500 blocks cover every row — row r lies in the
  block of point r / 400 — so the result array ends holding the projected distribution everywhere, and the argument
  arrays end unchanged.
-/
import proofs.«136241_j42563125903609_1_alg».proof.Proof.Gen.KernelIdeal.Value
import proofs.«136241_j42563125903609_1_alg».proof.Proof.Spec
import proofs.«136241_j42563125903609_1_alg».proof.Proof.KernelBlock
import proofs.«136241_j42563125903609_1_alg».proof.Proof.KernelReads
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## What a point writes back -/

theorem zero_offsets : (![0, 0] : Fin 2 → Nat) = fun _ => 0 := funext fun a => by fin_cases a <;> rfl

/-- The body stores ONE value over its whole output block, computed from its three whole input blocks: the buffer
    it leaves is that value. -/
theorem bodyResult_eq (x0 : Vec Ideal S400x1 .f32) (x1 : Vec Ideal S400x51 .f32) (x2 : Vec Ideal S1x51 .f32) :
    out0_3 (F := Ideal) x0 x1 x2
      = k0_pay1 (F := Ideal) (k0_pay5 (F := Ideal) x0 x2 x1) (k0_pay6 (F := Ideal) x0 x2)
          (Scalar.ofBits .f32 0x00000000#32) (k0_pay7 (F := Ideal) x0 x2 x1) := by
  unfold out0_3
  rw [View.canon_unit_zero zero_offsets]
  simp only [View.ld_unit_zero (S := S400x1) zero_offsets, View.ld_unit_zero (S := S1x51) zero_offsets,
    View.ld_unit_zero (S := S400x51) zero_offsets]

/-- The output's block index at point t, decided over the 2500 points: t on the row axis, 0 on the bin axis. -/
theorem outBlock_index : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Entry (p, j) of the output's block at point t is entry (400 t + p, j) of the result array. -/
theorem outBlock_emb (t : Fin cfg0.N) (p : Fin 400) (j : Fin 51) :
    ((cfg0.win 3).blk t).view.emb (ix2 p j) = (ix2 (rowOf t p) j : S1000000x51.Idx) := by
  obtain ⟨e0, e1⟩ := outBlock_index t
  funext a; apply Fin.ext
  match a with
  | ⟨0, _⟩ =>
    show win0_3.index t (0 : Fin 2) * 400 + 1 * p.val = (rowOf t p).val
    rw [rowOf_val, e0]; omega
  | ⟨1, _⟩ =>
    show win0_3.index t (1 : Fin 2) * 51 + 1 * j.val = j.val
    rw [e1]; omega

/-- WHAT POINT t WRITES BACK is block t of the projected distribution of the three argument arrays. -/
theorem flushed_eq (c : Dev nD) (t : Fin cfg0.N) :
    (dats m 0 c).flushed 3 t = ((cfg0.win 3).blk t).view.read (Elt Ideal)
      (Projection.G (m ((c : Thread nD τ).loc main_arg0)) (m ((c : Thread nD τ).loc main_arg1))
        (m ((c : Thread nD τ).loc main_arg2))) := by
  rw [Value.flushed3, bodyResult_eq]
  funext y
  obtain ⟨p, j, rfl⟩ : ∃ (p : Fin 400) (j : Fin 51), y = ix2 p j := ⟨y 0, y 1, eq_ix2 y⟩
  show k0_pay1 (F := Ideal) (k0_pay5 (F := Ideal) (iblk m c 0 t) (iblk m c 2 t) (iblk m c 1 t))
      (k0_pay6 (F := Ideal) (iblk m c 0 t) (iblk m c 2 t)) (Scalar.ofBits .f32 0x00000000#32)
      (k0_pay7 (F := Ideal) (iblk m c 0 t) (iblk m c 2 t) (iblk m c 1 t)) (ix2 p j)
    = Projection.G (m ((c : Thread nD τ).loc main_arg0)) (m ((c : Thread nD τ).loc main_arg1))
        (m ((c : Thread nD τ).loc main_arg2)) (((cfg0.win 3).blk t).view.emb (ix2 p j))
  rw [outBlock_emb t p j]
  exact result_eq_projection (iblk m c 0 t) (iblk m c 1 t) (iblk m c 2 t)
    (m ((c : Thread nD τ).loc main_arg0)) (m ((c : Thread nD τ).loc main_arg1)) (m ((c : Thread nD τ).loc main_arg2))
    p j (rowOf t p) (rewardBlock_apply m c t p) (fun a => probsBlock_apply m c t p a) (fun a => atomsBlock_apply m c t a)

/-! ## The blocks cover the array -/

/-- An index of the result array is in point t's block iff each coordinate is in the block's range on its axis. -/
theorem mem_outBlock (t : Fin cfg0.N) (i : S1000000x51.Idx) :
    i ∈ ((cfg0.win 3).blk t).view.set ↔ ∀ a : Fin 2, win0_3.index t a * S400x51.size a ≤ (i a).val
      ∧ (i a).val < win0_3.index t a * S400x51.size a + S400x51.size a := by
  show i ∈ ((View.whole main_v2).slice (win0_3.rect t)).set ↔ _
  rw [View.set_slice_whole, Rect.mem_set_unit]
  exact Iff.rfl

/-- Every index of the result array is in some point's block: row r is in the block of point r / 400, and
    2500 · 400 = 1000000 rows are all there are. -/
theorem outBlocks_cover (i : S1000000x51.Idx) :
    ∃ t : Fin cfg0.N, (cfg0.win 3).flush t = true ∧ i ∈ ((cfg0.win 3).blk t).view.set := by
  have hi0 : (i 0).val < 1000000 := (i 0).isLt
  have hi1 : (i 1).val < 51 := (i 1).isLt
  have hN : cfg0.N = 2500 := N_0
  obtain ⟨t, ht⟩ : ∃ t : Fin cfg0.N, t.val = (i 0).val / 400 := ⟨⟨(i 0).val / 400, by omega⟩, rfl⟩
  obtain ⟨e0, e1⟩ := outBlock_index t
  refine ⟨t, flush0_3 t, ?_⟩
  rw [mem_outBlock]
  intro a
  match a with
  | ⟨0, _⟩ =>
    show win0_3.index t (0 : Fin 2) * 400 ≤ (i 0).val ∧ (i 0).val < win0_3.index t (0 : Fin 2) * 400 + 400
    rw [e0, ht]; omega
  | ⟨1, _⟩ =>
    show win0_3.index t (1 : Fin 2) * 51 ≤ (i 1).val ∧ (i 1).val < win0_3.index t (1 : Fin 2) * 51 + 51
    rw [e1]; omega

/-- THE RESULT ARRAY after the run is the projected distribution of the three argument arrays. -/
theorem final (c : Dev nD) :
    (dats m 0 c).arrAt 3 cfg0.N
      = Projection.G (m ((c : Thread nD τ).loc main_arg0)) (m ((c : Thread nD τ).loc main_arg1))
          (m ((c : Thread nD τ).loc main_arg2)) :=
  (dats m 0 c).arrAt_eq_of_cover 3
    (Projection.G (m ((c : Thread nD τ).loc main_arg0)) (m ((c : Thread nD τ).loc main_arg1))
      (m ((c : Thread nD τ).loc main_arg2)))
    (fun t _ => flushed_eq m c t) outBlocks_cover

/-! ## The run -/

/-- The kernel at exact arithmetic: every weakly fair execution terminates with the result array at the projected
    distribution of the three argument arrays, and the argument arrays unchanged. -/
theorem run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ fun r => ∀ c : Dev Cert.KernelIdeal.nD,
        r.2.mem ((c.tc : Thread Cert.KernelIdeal.nD Cert.KernelIdeal.τ).loc Cert.KernelIdeal.main_v2)
          = Cert.Projection.G
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2) :=
  (θ_run defs _ _).mono (fun r h c => ⟨(h c).1.trans (final m c), (h c).2⟩) (Value.run_blocks m ρ)

end Cert.KernelIdeal.Whole

end
-- ==== Proof.Bins.lean ====
/-
  The two bins of every source atom are non-negative as signed 32-bit words, whatever the inputs.

  The clamp puts the shifted atom into [lo, hi] = [-10, 10] even when the sum is infinite, so the clamped value is a
  real v with -10 ≤ v; the position (v - lo) / step is then a non-negative real, its floor and its ceiling are
  non-negative integers, and the conversion of a non-negative integer-valued real to a signed 32-bit word (truncate,
  clamp into the word's range, wrap) is a word whose signed reading is non-negative. Beside it: a 32-bit word reads
  signed as the small natural number j exactly when it is the word j.
-/
import proofs.«136241_j42563125903609_1_alg».proof.Proof.Spec
import Mathlib.Data.EReal.Basic
import Mathlib.Data.EReal.Operations
import Mathlib.Data.EReal.Inv
import Mathlib.Algebra.Order.Floor.Ring

noncomputable section

namespace Cert.Projection

open Idealize.ShloMosaic

/-- The word 0xC1200000 is -10, -/
theorem lo_eq : lo = ((-10 : ℝ) : EReal) := by
  simp [lo, Ideal.ofBits, Ideal.ieee, -EReal.coe_mul]; norm_num
/-- 0x41200000 is 10, -/
theorem hi_eq : hi = ((10 : ℝ) : EReal) := by
  simp [hi, Ideal.ofBits, Ideal.ieee, -EReal.coe_mul]; norm_num
/-- and 0x3ECCCCCD, the f32 nearest 2/5, is 13421773 / 2^25. -/
theorem step_eq : step = ((13421773 / 33554432 : ℝ) : EReal) := by
  simp [step, Ideal.ofBits, Ideal.ieee, -EReal.coe_mul]; norm_num

/-- Clamping any extended real into [-10, 10] gives a real that is at least -10. -/
theorem clamp_real (z : EReal) :
    ∃ v : ℝ, -10 ≤ v ∧ min ((10 : ℝ) : EReal) (max ((-10 : ℝ) : EReal) z) = (v : EReal) := by
  induction z using EReal.rec with
  | bot =>
    refine ⟨-10, le_refl _, ?_⟩
    rw [max_eq_left bot_le, min_eq_right (EReal.coe_le_coe_iff.2 (by norm_num))]
  | top =>
    refine ⟨10, by norm_num, ?_⟩
    rw [max_eq_right le_top, min_eq_left le_top]
  | coe r =>
    refine ⟨min 10 (max (-10) r), le_min (by norm_num) (le_max_left _ _), ?_⟩
    rw [EReal.coe_strictMono.monotone.map_min, EReal.coe_strictMono.monotone.map_max]

/-- The position of a shifted atom is a non-negative real. -/
theorem pos_real (x y : EReal) : ∃ r : ℝ, 0 ≤ r ∧ pos x y = (r : EReal) := by
  obtain ⟨v, hv, hc⟩ := clamp_real (x + y)
  refine ⟨(v - (-10)) * (1 / (13421773 / 33554432)), mul_nonneg (by linarith) (by norm_num), ?_⟩
  unfold pos
  rw [lo_eq, hi_eq, step_eq, hc, ← EReal.coe_sub, Ideal.div_coe (by norm_num), ← EReal.coe_mul]

/-- A non-negative integer-valued real converts to a word that reads signed as a non-negative number. -/
theorem fptosi_nonneg (n : ℤ) (hn : 0 ≤ n) : 0 ≤ (Ideal.fptosi 32 (((n : ℝ)) : EReal)).toInt := by
  unfold Ideal.fptosi
  have hc : Ideal.toIntClamped (-((2 ^ (32 - 1) : Nat) : Int)) (((2 ^ (32 - 1) : Nat) : Int) - 1) (((n : ℝ)) : EReal)
      = max (-((2 ^ (32 - 1) : Nat) : Int)) (min (((2 ^ (32 - 1) : Nat) : Int) - 1) n) := by
    show max _ (min _ (if (0 : ℝ) ≤ (n : ℝ) then ⌊(n : ℝ)⌋ else ⌈(n : ℝ)⌉)) = _
    rw [if_pos (by exact_mod_cast hn), Int.floor_intCast]
  rw [hc]
  have h31 : ((2 ^ (32 - 1) : Nat) : Int) = 2147483648 := by norm_num
  rw [h31]
  have hrange : 0 ≤ max (-2147483648 : Int) (min (2147483648 - 1) n)
      ∧ max (-2147483648 : Int) (min (2147483648 - 1) n) < 2147483648 := by omega
  rw [BitVec.toInt_ofInt_eq_self (by norm_num) (by norm_num <;> omega) (by norm_num <;> omega)]
  exact hrange.1

theorem below_int (x y : EReal) : ∃ n : ℤ, 0 ≤ n ∧ below x y = (((n : ℝ)) : EReal) := by
  obtain ⟨r, hr, hp⟩ := pos_real x y
  exact ⟨⌊r⌋, Int.floor_nonneg.2 hr, by unfold below; rw [hp]; rfl⟩

theorem above_int (x y : EReal) : ∃ n : ℤ, 0 ≤ n ∧ above x y = (((n : ℝ)) : EReal) := by
  obtain ⟨r, hr, hp⟩ := pos_real x y
  exact ⟨⌈r⌉, Int.ceil_nonneg hr, by unfold above; rw [hp]; rfl⟩

/-- A word whose signed reading is non-negative is not below the zero word. -/
theorem not_slt_zero (k : BitVec 32) (h : 0 ≤ k.toInt) : IntOp.cmpi .slt k 0#32 = 0#1 := by
  unfold IntOp.cmpi
  have : k.slt 0#32 = false := by
    rw [BitVec.slt_eq_decide]
    simpa using h
  simp [this]

/-- The bin below is never a negative word, -/
theorem binBelow_not_neg (x y : EReal) : IntOp.cmpi .slt (binBelow x y) 0#32 = 0#1 := by
  obtain ⟨n, hn, hb⟩ := below_int x y
  refine not_slt_zero _ ?_
  unfold binBelow; rw [hb]; exact fptosi_nonneg n hn

/-- nor is the bin above. -/
theorem binAbove_not_neg (x y : EReal) : IntOp.cmpi .slt (binAbove x y) 0#32 = 0#1 := by
  obtain ⟨n, hn, hb⟩ := above_int x y
  refine not_slt_zero _ ?_
  unfold binAbove; rw [hb]; exact fptosi_nonneg n hn

/-- The zero word is 0. -/
theorem nought_eq : nought = 0 := by
  simp [nought, Ideal.ofBits, Ideal.ieee]

/-- The word of a natural number below 2^31 reads signed as that number. -/
theorem toInt_ofNat_small (j : Nat) (hj : j < 2147483648) : (BitVec.ofNat 32 j).toInt = (j : Int) := by
  rw [← BitVec.ofInt_natCast, BitVec.toInt_ofInt_eq_self (by norm_num) (by norm_num <;> omega) (by norm_num <;> omega)]

/-- A 32-bit word reads signed as the natural number j below 2^31 exactly when it is the word j. -/
theorem toInt_eq_iff_cmpi_eq (k : BitVec 32) (j : Nat) (hj : j < 2147483648) :
    k.toInt = (j : Int) ↔ IntOp.cmpi .eq k (BitVec.ofNat 32 j) = 1#1 := by
  have hto : (BitVec.ofNat 32 j).toInt = (j : Int) := toInt_ofNat_small j hj
  show k.toInt = (j : Int) ↔ BitVec.ofBool (k == BitVec.ofNat 32 j) = 1#1
  constructor
  · intro h
    have : k = BitVec.ofNat 32 j := BitVec.eq_of_toInt_eq (h.trans hto.symm)
    rw [this, beq_self_eq_true]; rfl
  · intro h
    cases hb : (k == BitVec.ofNat 32 j) with
    | true => rw [eq_of_beq hb, hto]
    | false => rw [hb] at h; exact absurd h (by decide)

end Cert.Projection

end
-- ==== Proof.RefStages.lean ====
/-
  The reference's intermediate arrays read at one (row, source atom): the position of the shifted atom on the
  support, its two bins, and the two weighted masses, each as the scalar function of the row's reward, the atom's
  value and the atom's probability that the specification names. The reference adds the atom to the reward in the
  other order and multiplies the share by the probability in the other order; both operations commute.
-/
import proofs.«136241_j42563125903609_1_alg».proof.Proof.Gen.ReferenceIdeal.Read
import proofs.«136241_j42563125903609_1_alg».proof.Proof.Spec
import proofs.«136241_j42563125903609_1_alg».proof.Proof.Bins
import Idealize.ShloMosaic.Lib.ValueIdx
import Idealize.ShloMosaic.Lib.Pipeline.Value

noncomputable section

namespace Cert.ReferenceIdeal.Whole

open Cert.ReferenceIdeal Cert.ReferenceIdeal.Gen Cert.ReferenceIdeal.Read Idealize.ShloMosaic Idealize.ShloMosaic.TcCoe
open Idealize.ShloMosaic.ValueIdx Cert.Projection

variable (x0 : (⟨S1000000, .f32⟩ : BufTy).Contents (Elt Ideal)) (x1 : (⟨S1000000x51, .f32⟩ : BufTy).Contents (Elt Ideal))
  (x2 : (⟨S51, .f32⟩ : BufTy).Contents (Elt Ideal))

/-- The atom's value is read at the atom's number, whatever the row, -/
theorem atom_idx (r : Fin 1000000) (a : Fin 51) : idx_main_v0 (idx_main_v2 (ix2 r a)) = ix1 a := by
  funext d; match d with | ⟨0, _⟩ => rfl
/-- and the reward at the row's number, whatever the atom. -/
theorem row_idx (r : Fin 1000000) (a : Fin 51) : idx_main_v1 (idx_main_v3 (ix2 r a)) = ix1 r := by
  funext d; match d with | ⟨0, _⟩ => rfl

/-- The fractional position the reference computes at (r, a) is the specification's. -/
theorem pos_at (r : Fin 1000000) (a : Fin 51) :
    val_main_v9 (F := Ideal) x0 x2 (ix2 r a) = pos (x0 (ix1 r)) (x2 (ix1 a)) := by
  simp only [val_main_v9_apply, val_main_v7_apply, val_main_v5_apply, val_main_call0_v2_apply, val_main_v4_apply,
    val_main_v2_apply, val_main_v0_apply, val_main_v3_apply, val_main_v1_apply, val_main_call0_v4_apply,
    val_main_call0_v3_apply, val_main_cst_0_apply, val_main_call0_v1_apply, val_main_call0_v0_apply, val_main_cst_apply,
    val_main_v6_apply, val_main_cst_1_apply, val_main_v8_apply, val_main_cst_2_apply, atom_idx, row_idx]
  unfold pos
  simp only [Ideal.hostDivf_def, Ideal.subf_def, Ideal.minimumf_def, Ideal.maximumf_def, Ideal.addf_def, Ideal.ofBits_def]
  rw [add_comm]

/-- Its floor and its ceiling, -/
theorem below_at (r : Fin 1000000) (a : Fin 51) :
    val_main_v10 (F := Ideal) x0 x2 (ix2 r a) = below (x0 (ix1 r)) (x2 (ix1 a)) := by
  rw [val_main_v10_apply, pos_at]; rfl
theorem above_at (r : Fin 1000000) (a : Fin 51) :
    val_main_v11 (F := Ideal) x0 x2 (ix2 r a) = above (x0 (ix1 r)) (x2 (ix1 a)) := by
  rw [val_main_v11_apply, pos_at]; rfl

/-- and the two bins as the conversion leaves them. -/
theorem binBelow_raw_at (r : Fin 1000000) (a : Fin 51) :
    val_main_v16 (F := Ideal) x0 x2 (ix2 r a) = binBelow (x0 (ix1 r)) (x2 (ix1 a)) := by
  rw [val_main_v16_apply, below_at]; rfl
theorem binAbove_raw_at (r : Fin 1000000) (a : Fin 51) :
    val_main_v17 (F := Ideal) x0 x2 (ix2 r a) = binAbove (x0 (ix1 r)) (x2 (ix1 a)) := by
  rw [val_main_v17_apply, above_at]; rfl

/-- The mass sent below is the probability times the share below (the reference multiplies in the other order), -/
theorem massBelow_at (r : Fin 1000000) (a : Fin 51) :
    val_main_v22 (F := Ideal) x0 x1 x2 (ix2 r a)
      = x1 (ix2 r a) * shareBelow (x0 (ix1 r)) (x2 (ix1 a)) := by
  rw [val_main_v22_apply, val_main_v14_apply, val_main_v12_apply, val_main_v13_apply, val_main_call1_v1_apply,
    val_main_call1_v0_apply, val_main_cst_3_apply, below_at, above_at, pos_at]
  unfold shareBelow
  exact mul_comm _ _

/-- and the mass sent above the probability times the share above. -/
theorem massAbove_at (r : Fin 1000000) (a : Fin 51) :
    val_main_v37 (F := Ideal) x0 x1 x2 (ix2 r a)
      = x1 (ix2 r a) * shareAbove (x0 (ix1 r)) (x2 (ix1 a)) := by
  rw [val_main_v37_apply, val_main_v15_apply, below_at, pos_at]
  unfold shareAbove
  exact mul_comm _ _

/-! ## The index pairs: (row number, bin), neither of which the wrap of negative indices changes -/

/-- The row number of (r, a), as a word, before the wrap of negative indices. -/
theorem rowWord_raw_at (r : Fin 1000000) (a : Fin 51) :
    val_main_v20 (F := Ideal) (ix2 r a) = BitVec.ofNat 32 r.val := by
  rw [val_main_v20_apply, val_main_v19_apply, val_main_v18_apply]

/-- A row number is not negative, so the wrap leaves it: in the first scatter's indices, -/
theorem rowWord_at (r : Fin 1000000) (a : Fin 51) :
    val_main_v27 (F := Ideal) (ix2 r a) = BitVec.ofNat 32 r.val := by
  rw [val_main_v27_apply, val_main_v24_apply, val_main_v23_apply, val_main_c_apply, rowWord_raw_at]
  have h : IntOp.cmpi .slt (BitVec.ofNat 32 r.val) 0#32 = 0#1 :=
    not_slt_zero _ (by rw [toInt_ofNat_small _ (by have := r.isLt; omega)]; exact Int.natCast_nonneg _)
  rw [h, select_zero]

/-- and in the second's. -/
theorem rowWord_at' (r : Fin 1000000) (a : Fin 51) :
    val_main_v42 (F := Ideal) (ix2 r a) = BitVec.ofNat 32 r.val := by
  rw [val_main_v42_apply, val_main_v39_apply, val_main_v38_apply, val_main_c_8_apply, rowWord_raw_at]
  have h : IntOp.cmpi .slt (BitVec.ofNat 32 r.val) 0#32 = 0#1 :=
    not_slt_zero _ (by rw [toInt_ofNat_small _ (by have := r.isLt; omega)]; exact Int.natCast_nonneg _)
  rw [h, select_zero]

/-- A bin is not negative either, so the wrap leaves it: the bin below, -/
theorem binBelow_at (r : Fin 1000000) (a : Fin 51) :
    val_main_v32 (F := Ideal) x0 x2 (ix2 r a) = binBelow (x0 (ix1 r)) (x2 (ix1 a)) := by
  rw [val_main_v32_apply, val_main_v29_apply, val_main_v28_apply, val_main_c_6_apply, binBelow_raw_at]
  have h := binBelow_not_neg (x0 (ix1 r)) (x2 (ix1 a))
  rw [h, select_zero]

/-- and the bin above. -/
theorem binAbove_at (r : Fin 1000000) (a : Fin 51) :
    val_main_v47 (F := Ideal) x0 x2 (ix2 r a) = binAbove (x0 (ix1 r)) (x2 (ix1 a)) := by
  rw [val_main_v47_apply, val_main_v44_apply, val_main_v43_apply, val_main_c_10_apply, binAbove_raw_at]
  have h := binAbove_not_neg (x0 (ix1 r)) (x2 (ix1 a))
  rw [h, select_zero]

end Cert.ReferenceIdeal.Whole

end
-- ==== Proof.LibGridScatter.lean ====
/-
  A general lemma: StableHLO's accumulating scatter of a GRID of scalars into a matrix at a grid of index PAIRS,
  read at an index, over the extended reals.

  The accumulation table[rows[r, a], cols[r, a]] += vals[r, a], r < R, a < A, for a grid of updates vals of shape
  [R, A] and two integer grids rows, cols of the same shape: a scatter with an add body into a table [N, M] whose
  scatter indices are the two grids stacked on a new last axis as an [R, A, 2] array (the index vector on the last
  axis, of length two), both axes of the table inserted and scatter-indexed, the updates having no window axis at
  all. Update element (r, a) lands on table element (idx[r, a, 0], idx[r, a, 1]), both words read as signed
  integers, and is dropped when that pair is outside [0, N) × [0, M). Over the extended reals the result at (i, j)
  is the table's element there plus the sum of the updates (r, a) whose index pair is (i, j).

  When the first word at (r, a) is the row number r itself, update (r, a) can only land in row r of the table, and
  the result at (i, j) is the table's element there plus the sum over a of the updates (i, a) whose second word is j.
-/
import Idealize.ShloMosaic.Lib.ValueIdx
import Idealize.ShloMosaic.PureOps.Ideal
import Idealize.ShloMosaic.PureOps.Contract

noncomputable section

namespace Cert.ScatterGrid

open Idealize.ShloMosaic Idealize.ShloMosaic.ValueIdx

/-- Those dimension numbers, for a table [N, M], scatter indices [R, A, 2] and updates [R, A]; the conditions wf are
    decided on a program's literal shapes. -/
abbrev gridDims (N M R A : Nat)
    (wf : ScatterDims.WF ⟨2, ![N, M]⟩ ⟨3, ![R, A, 2]⟩ ⟨2, ![R, A]⟩ [] [0, 1] [0, 1] 2) :
    ScatterDims ⟨2, ![N, M]⟩ ⟨3, ![R, A, 2]⟩ ⟨2, ![R, A]⟩ where
  updateWindowDims := []
  insertedWindowDims := [0, 1]
  scatterDimsToOperandDims := [0, 1]
  indexVectorDim := 2
  wf := wf

section
variable {N M R A w : Nat}
  (wf : ScatterDims.WF ⟨2, ![N, M]⟩ ⟨3, ![R, A, 2]⟩ ⟨2, ![R, A]⟩ [] [0, 1] [0, 1] 2)
  (idx : IVec ⟨3, ![R, A, 2]⟩ w) (r : Fin R) (a : Fin A)

/-- Both axes of the table are inserted, so no axis is kept. -/
theorem not_mem_sKept (c : Fin 2) : ¬ c ∈ (gridDims N M R A wf).sKept := by
  match c with
  | ⟨0, _⟩ => simp [ScatterDims.sKept, Shape.kept]
  | ⟨1, _⟩ => simp [ScatterDims.sKept, Shape.kept]

/-- On the ROW axis the window of update (r, a) starts at the first word of its index pair, read signed: the
    scatter-indices index it reads is (r, a, 0), the update's two coordinates on the two grid axes and 0 on the
    index vector's axis. -/
theorem start_row :
    (gridDims N M R A wf).start (ix2 r a) idx (0 : Fin 2) = (idx (ix3 r a (0 : Fin 2))).toInt := by
  unfold ScatterDims.start
  rw [dif_pos (show (0 : Fin 2) ∈ (gridDims N M R A wf).scatterDimsToOperandDims from by simp)]
  have hsi : (gridDims N M R A wf).siIdx (ix2 r a)
      ⟨List.idxOf (0 : Fin 2) (gridDims N M R A wf).scatterDimsToOperandDims,
        List.idxOf_lt_length_iff.2 (by simp)⟩ = ix3 r a (0 : Fin 2) := by
    funext b; refine Fin.ext ?_
    match b with
    | ⟨0, _⟩ => rfl
    | ⟨1, _⟩ => rfl
    | ⟨2, _⟩ => rfl
  rw [hsi]

/-- On the COLUMN axis it starts at the second word of its index pair, read signed. -/
theorem start_col :
    (gridDims N M R A wf).start (ix2 r a) idx (1 : Fin 2) = (idx (ix3 r a (1 : Fin 2))).toInt := by
  unfold ScatterDims.start
  rw [dif_pos (show (1 : Fin 2) ∈ (gridDims N M R A wf).scatterDimsToOperandDims from by simp)]
  have hsi : (gridDims N M R A wf).siIdx (ix2 r a)
      ⟨List.idxOf (1 : Fin 2) (gridDims N M R A wf).scatterDimsToOperandDims,
        List.idxOf_lt_length_iff.2 (by simp)⟩ = ix3 r a (1 : Fin 2) := by
    funext b; refine Fin.ext ?_
    match b with
    | ⟨0, _⟩ => rfl
    | ⟨1, _⟩ => rfl
    | ⟨2, _⟩ => rfl
  rw [hsi]

/-- The window coordinate is 0 on both axes: the updates have no window axis. -/
theorem window_zero (c : Fin 2) : (gridDims N M R A wf).window (ix2 r a) c = 0 := by
  unfold ScatterDims.window
  rw [dif_neg (not_mem_sKept wf c)]

end

section
variable {N M R A w : Nat}
  (wf : ScatterDims.WF ⟨2, ![N, M]⟩ ⟨3, ![R, A, 2]⟩ ⟨2, ![R, A]⟩ [] [0, 1] [0, 1] 2)
  (idx : IVec ⟨3, ![R, A, 2]⟩ w)

/-- WHERE AN UPDATE LANDS: update (r, a) lands on table element (i, j) exactly when the two words of its index
    pair, read signed, are i and j. Start plus window coordinate is that pair; it is inside the table exactly when
    the pair is in [0, N) × [0, M), which i < N and j < M give. -/
theorem resultIdx?_eq_some_iff (r : Fin R) (a : Fin A) (i : Fin N) (j : Fin M) :
    (gridDims N M R A wf).resultIdx? (ix2 r a) idx = some (ix2 i j)
      ↔ (idx (ix3 r a (0 : Fin 2))).toInt = (i.val : Int) ∧ (idx (ix3 r a (1 : Fin 2))).toInt = (j.val : Int) := by
  unfold ScatterDims.resultIdx?
  constructor
  · intro hEq
    split at hEq
    · rename_i h
      have hf := Option.some.inj hEq
      have h0 : ((gridDims N M R A wf).start (ix2 r a) idx (0 : Fin 2)
          + ((gridDims N M R A wf).window (ix2 r a) (0 : Fin 2) : Nat)).toNat = i.val :=
        congrArg (fun f : (⟨2, ![N, M]⟩ : Shape).Idx => (f (0 : Fin 2)).val) hf
      have h1 : ((gridDims N M R A wf).start (ix2 r a) idx (1 : Fin 2)
          + ((gridDims N M R A wf).window (ix2 r a) (1 : Fin 2) : Nat)).toNat = j.val :=
        congrArg (fun f : (⟨2, ![N, M]⟩ : Shape).Idx => (f (1 : Fin 2)).val) hf
      have hb0 : 0 ≤ (gridDims N M R A wf).start (ix2 r a) idx (0 : Fin 2)
          + ((gridDims N M R A wf).window (ix2 r a) (0 : Fin 2) : Nat) := (h (0 : Fin 2)).1
      have hb1 : 0 ≤ (gridDims N M R A wf).start (ix2 r a) idx (1 : Fin 2)
          + ((gridDims N M R A wf).window (ix2 r a) (1 : Fin 2) : Nat) := (h (1 : Fin 2)).1
      rw [start_row, window_zero] at h0 hb0
      rw [start_col, window_zero] at h1 hb1
      exact ⟨by omega, by omega⟩
    · exact absurd hEq (by simp)
  · rintro ⟨h0, h1⟩
    have hall : ∀ c : Fin 2,
        0 ≤ (gridDims N M R A wf).start (ix2 r a) idx c + ((gridDims N M R A wf).window (ix2 r a) c : Nat)
        ∧ (gridDims N M R A wf).start (ix2 r a) idx c + ((gridDims N M R A wf).window (ix2 r a) c : Nat)
            < ((⟨2, ![N, M]⟩ : Shape).size c : Nat) := by
      intro c
      match c with
      | ⟨0, _⟩ =>
        show 0 ≤ (gridDims N M R A wf).start (ix2 r a) idx (0 : Fin 2)
              + ((gridDims N M R A wf).window (ix2 r a) (0 : Fin 2) : Nat)
          ∧ (gridDims N M R A wf).start (ix2 r a) idx (0 : Fin 2)
              + ((gridDims N M R A wf).window (ix2 r a) (0 : Fin 2) : Nat) < (N : Int)
        rw [start_row, window_zero, h0]
        have := i.isLt
        omega
      | ⟨1, _⟩ =>
        show 0 ≤ (gridDims N M R A wf).start (ix2 r a) idx (1 : Fin 2)
              + ((gridDims N M R A wf).window (ix2 r a) (1 : Fin 2) : Nat)
          ∧ (gridDims N M R A wf).start (ix2 r a) idx (1 : Fin 2)
              + ((gridDims N M R A wf).window (ix2 r a) (1 : Fin 2) : Nat) < (M : Int)
        rw [start_col, window_zero, h1]
        have := j.isLt
        omega
    rw [dif_pos hall]
    refine congrArg some (funext fun c => Fin.ext ?_)
    match c with
    | ⟨0, _⟩ =>
      show ((gridDims N M R A wf).start (ix2 r a) idx (0 : Fin 2)
          + ((gridDims N M R A wf).window (ix2 r a) (0 : Fin 2) : Nat)).toNat = i.val
      rw [start_row, window_zero, h0]
      omega
    | ⟨1, _⟩ =>
      show ((gridDims N M R A wf).start (ix2 r a) idx (1 : Fin 2)
          + ((gridDims N M R A wf).window (ix2 r a) (1 : Fin 2) : Nat)).toNat = j.val
      rw [start_col, window_zero, h1]
      omega

end

/-- THE ACCUMULATING SCATTER READ AT (i, j), over the extended reals: the table there plus the updates (r, a) whose
    index pair, read signed, is (i, j). -/
theorem scatterAdd_grid_apply {N M R A w : Nat} {φ : FTy}
    (wf : ScatterDims.WF ⟨2, ![N, M]⟩ ⟨3, ![R, A, 2]⟩ ⟨2, ![R, A]⟩ [] [0, 1] [0, 1] 2)
    (x : FVec Ideal ⟨2, ![N, M]⟩ φ) (idx : IVec ⟨3, ![R, A, 2]⟩ w) (upd : FVec Ideal ⟨2, ![R, A]⟩ φ)
    (i : Fin N) (j : Fin M) :
    Host.scatterAdd (gridDims N M R A wf) x idx upd (ix2 i j)
      = x (ix2 i j) + ∑ e ∈ Finset.univ.filter (fun e : Fin R × Fin A =>
            (idx (ix3 e.1 e.2 (0 : Fin 2))).toInt = (i.val : Int)
              ∧ (idx (ix3 e.1 e.2 (1 : Fin 2))).toInt = (j.val : Int)),
          upd (ix2 e.1 e.2) := by
  -- The scatter at (i, j) is the table there plus the sum of the updates that land there; the updates that land at
  -- (i, j) are the (r, a) whose index pair is (i, j), and (r, a) ↦ the update index with those two coordinates is a
  -- bijection onto them, with inverse k ↦ (k 0, k 1).
  unfold Host.scatterAdd
  rw [Ideal.hostScatterAdd_def]
  unfold Ideal.hostScatterAdd
  refine congrArg (x (ix2 i j) + ·) ?_
  symm
  refine Finset.sum_nbij' (fun e : Fin R × Fin A => (ix2 e.1 e.2 : (⟨2, ![R, A]⟩ : Shape).Idx))
    (fun k : (⟨2, ![R, A]⟩ : Shape).Idx => ((k (0 : Fin 2) : Fin R), (k (1 : Fin 2) : Fin A))) ?_ ?_ ?_ ?_ ?_
  · intro e he
    rw [Finset.mem_filter] at he ⊢
    exact ⟨Finset.mem_univ _, (resultIdx?_eq_some_iff wf idx e.1 e.2 i j).mpr he.2⟩
  · intro k hk
    obtain ⟨r, a, rfl⟩ : ∃ r a, k = ix2 r a := ⟨k 0, k 1, eq_ix2 k⟩
    rw [Finset.mem_filter] at hk ⊢
    exact ⟨Finset.mem_univ _, (resultIdx?_eq_some_iff wf idx r a i j).mp hk.2⟩
  · intro e _
    rfl
  · intro k _
    exact (eq_ix2 k).symm
  · intro e _
    rfl

/-- ROW-PRESERVING INDICES: when the first word at (r, a) is the row number r itself, update (r, a) can land only
    in row r, so the result at (i, j) is the table there plus the updates (i, a), a < A, whose second word is j. -/
theorem scatterAdd_grid_rows_apply {M R A w : Nat} {φ : FTy}
    (wf : ScatterDims.WF ⟨2, ![R, M]⟩ ⟨3, ![R, A, 2]⟩ ⟨2, ![R, A]⟩ [] [0, 1] [0, 1] 2)
    (x : FVec Ideal ⟨2, ![R, M]⟩ φ) (idx : IVec ⟨3, ![R, A, 2]⟩ w) (upd : FVec Ideal ⟨2, ![R, A]⟩ φ)
    (hrow : ∀ (r : Fin R) (a : Fin A), (idx (ix3 r a (0 : Fin 2))).toInt = (r.val : Int))
    (i : Fin R) (j : Fin M) :
    Host.scatterAdd (gridDims R M R A wf) x idx upd (ix2 i j)
      = x (ix2 i j)
        + ∑ a : Fin A, if (idx (ix3 i a (1 : Fin 2))).toInt = (j.val : Int) then upd (ix2 i a) else 0 := by
  -- The filtered sum over pairs is the double sum of the guarded updates; a row r other than i contributes nothing,
  -- since its first word is r and not i; in row i the first condition holds and only the second is left.
  rw [scatterAdd_grid_apply]
  refine congrArg (x (ix2 i j) + ·) ?_
  rw [Finset.sum_filter, Fintype.sum_prod_type, Finset.sum_eq_single i]
  · refine Finset.sum_congr rfl fun a _ => ?_
    simp only [hrow, true_and]
  · intro r _ hr
    refine Finset.sum_eq_zero fun a _ => ?_
    rw [if_neg]
    rintro ⟨h0, _⟩
    rw [hrow] at h0
    exact hr (Fin.ext (by exact_mod_cast h0))
  · intro h
    exact absurd (Finset.mem_univ i) h

end Cert.ScatterGrid

end
-- ==== Proof.RefValue.lean ====
/-
  The reference's result is the specification's function of the three argument arrays.

  The reference starts from the zero array and performs two accumulating scatters. Each scatters the 1000000 × 51
  grid of masses (the masses sent below, then the masses sent above) at a grid of index pairs whose first word at
  (r, a) is the row number r and whose second word is the atom's bin. Since the first word is the row number, the
  mass of (r, a) can only land in row r; so the result at (r, j) is the sum, over the 51 source atoms a of row r, of
  the mass of (r, a) when its bin reads signed as j, first for the bins below and then for the bins above. A word
  reads signed as j exactly when it is the word j, which is how the specification spells the test; and the zero
  array contributes the zero word's value, which is 0.
-/
import proofs.«136241_j42563125903609_1_alg».proof.Proof.RefStages
import proofs.«136241_j42563125903609_1_alg».proof.Proof.LibGridScatter
import Idealize.ShloMosaic.Lib.Pipeline.Value

noncomputable section

namespace Cert.ReferenceIdeal.Whole

open Cert.ReferenceIdeal Cert.ReferenceIdeal.Gen Cert.ReferenceIdeal.Read Idealize.ShloMosaic Idealize.ShloMosaic.TcCoe
open Idealize.SL.Sem Idealize.ShloMosaic.ValueIdx Cert.Projection Cert.ScatterGrid

variable (x0 : (⟨S1000000, .f32⟩ : BufTy).Contents (Elt Ideal)) (x1 : (⟨S1000000x51, .f32⟩ : BufTy).Contents (Elt Ideal))
  (x2 : (⟨S51, .f32⟩ : BufTy).Contents (Elt Ideal))

/-! ## The index pairs at (r, a): the row number, then the bin -/

/-- The grid position a pair's word is read at. -/
theorem pair_idx (r : Fin 1000000) (a : Fin 51) : idx_main_v33 (ix3 r a (0 : Fin 1)) = ix2 r a := by
  funext d; match d with | ⟨0, _⟩ => rfl | ⟨1, _⟩ => rfl

/-- First scatter: the first word of the pair at (r, a) is the row number, -/
theorem pairRow_at (r : Fin 1000000) (a : Fin 51) :
    val_main_v35 (F := Ideal) x0 x2 (ix3 r a (0 : Fin 2)) = BitVec.ofNat 32 r.val := by
  unfold val_main_v35
  rw [concatenate_pair_apply_left (s₁ := S1000000x51x1) (s₂ := S1000000x51x1) (2 : Fin 3) _ _ concatenates_S1000000x51x1_S1000000x51x1_S1000000x51x2_d2
    (ix3 r a (0 : Fin 2)) rfl (ix3 r a (0 : Fin 1))
    (fun b => match b with | ⟨0, _⟩ => rfl | ⟨1, _⟩ => rfl | ⟨2, _⟩ => rfl)]
  rw [val_main_v33_apply, pair_idx, rowWord_at]

/-- and the second word is the bin below. -/
theorem pairBin_at (r : Fin 1000000) (a : Fin 51) :
    val_main_v35 (F := Ideal) x0 x2 (ix3 r a (1 : Fin 2)) = binBelow (x0 (ix1 r)) (x2 (ix1 a)) := by
  unfold val_main_v35
  rw [concatenate_pair_apply_right (s₁ := S1000000x51x1) (s₂ := S1000000x51x1) (2 : Fin 3) _ _ concatenates_S1000000x51x1_S1000000x51x1_S1000000x51x2_d2
    (ix3 r a (1 : Fin 2)) rfl rfl (ix3 r a (0 : Fin 1))
    (fun b hb => match b, hb with | ⟨0, _⟩, _ => rfl | ⟨1, _⟩, _ => rfl | ⟨2, _⟩, hb => absurd rfl hb) rfl]
  rw [val_main_v34_apply]
  show val_main_v32 (F := Ideal) x0 x2 (idx_main_v33 (ix3 r a (0 : Fin 1))) = _
  rw [pair_idx, binBelow_at]

/-- Second scatter: the row number again, -/
theorem pairRow_at' (r : Fin 1000000) (a : Fin 51) :
    val_main_v50 (F := Ideal) x0 x2 (ix3 r a (0 : Fin 2)) = BitVec.ofNat 32 r.val := by
  unfold val_main_v50
  rw [concatenate_pair_apply_left (s₁ := S1000000x51x1) (s₂ := S1000000x51x1) (2 : Fin 3) _ _ concatenates_S1000000x51x1_S1000000x51x1_S1000000x51x2_d2
    (ix3 r a (0 : Fin 2)) rfl (ix3 r a (0 : Fin 1))
    (fun b => match b with | ⟨0, _⟩ => rfl | ⟨1, _⟩ => rfl | ⟨2, _⟩ => rfl)]
  rw [val_main_v48_apply]
  show val_main_v42 (F := Ideal) (idx_main_v33 (ix3 r a (0 : Fin 1))) = _
  rw [pair_idx, rowWord_at']

/-- and the bin above. -/
theorem pairBin_at' (r : Fin 1000000) (a : Fin 51) :
    val_main_v50 (F := Ideal) x0 x2 (ix3 r a (1 : Fin 2)) = binAbove (x0 (ix1 r)) (x2 (ix1 a)) := by
  unfold val_main_v50
  rw [concatenate_pair_apply_right (s₁ := S1000000x51x1) (s₂ := S1000000x51x1) (2 : Fin 3) _ _ concatenates_S1000000x51x1_S1000000x51x1_S1000000x51x2_d2
    (ix3 r a (1 : Fin 2)) rfl rfl (ix3 r a (0 : Fin 1))
    (fun b hb => match b, hb with | ⟨0, _⟩, _ => rfl | ⟨1, _⟩, _ => rfl | ⟨2, _⟩, hb => absurd rfl hb) rfl]
  rw [val_main_v49_apply]
  show val_main_v47 (F := Ideal) x0 x2 (idx_main_v33 (ix3 r a (0 : Fin 1))) = _
  rw [pair_idx, binAbove_at]

/-! ## The two scatters read at (r, j) -/

/-- The program's scatter dimension numbers are the grid scatter's. -/
theorem dims_eq : scatter_S1000000x51_S1000000x51x2_S1000000x51_n_01_01_2
    = gridDims 1000000 51 1000000 51 scatter_S1000000x51_S1000000x51x2_S1000000x51_n_01_01_2.wf := rfl

/-- A mass guarded by "its bin reads signed as j" is the mass selected by "its bin is the word j". -/
theorem guarded_eq (k : BitVec 32) (j : Fin 51) (u : EReal) :
    (if k.toInt = (j.val : Int) then u else 0) = Scalar.select (IntOp.cmpi .eq k (BitVec.ofNat 32 j.val)) u nought := by
  have hj : j.val < 2147483648 := by have := j.isLt; omega
  by_cases h : k.toInt = (j.val : Int)
  · rw [if_pos h, (toInt_eq_iff_cmpi_eq k j.val hj).1 h, select_one]
  · have h0 : IntOp.cmpi .eq k (BitVec.ofNat 32 j.val) = 0#1 :=
      eq_zero_of_ne_one fun h1 => h ((toInt_eq_iff_cmpi_eq k j.val hj).2 h1)
    rw [if_neg h, h0, select_zero, nought_eq]

/-- After the first scatter, (r, j) holds the mass row r's atoms send to bin j from below. -/
theorem firstScatter_at (r : Fin 1000000) (j : Fin 51) :
    val_main_v36 (F := Ideal) x0 x1 x2 (ix2 r j)
      = ∑ a : Fin 51, Scalar.select (IntOp.cmpi .eq (binBelow (x0 (ix1 r)) (x2 (ix1 a))) (BitVec.ofNat 32 j.val))
          (x1 (ix2 r a) * shareBelow (x0 (ix1 r)) (x2 (ix1 a))) nought := by
  unfold val_main_v36
  rw [dims_eq]
  refine (scatterAdd_grid_rows_apply (φ := .f32) _ (val_main_v21 (F := Ideal)) (val_main_v35 (F := Ideal) x0 x2)
    (val_main_v22 (F := Ideal) x0 x1 x2)
    (fun r a => by rw [pairRow_at, toInt_ofNat_small _ (by have := r.isLt; omega)]) r j).trans ?_
  rw [val_main_v21_apply, val_main_cst_4_apply]
  show nought + _ = _
  conv_lhs => rw [nought_eq, zero_add]
  refine Finset.sum_congr rfl fun a _ => ?_
  rw [pairBin_at, massBelow_at]
  exact guarded_eq _ j _

/-- After the second, it holds that plus the mass they send to bin j from above: the specification's value. -/
theorem secondScatter_at (r : Fin 1000000) (j : Fin 51) :
    val_main_v51 (F := Ideal) x0 x1 x2 (ix2 r j) = G x0 x1 x2 (ix2 r j) := by
  unfold val_main_v51
  rw [dims_eq]
  refine (scatterAdd_grid_rows_apply (φ := .f32) _ (val_main_v36 (F := Ideal) x0 x1 x2) (val_main_v50 (F := Ideal) x0 x2)
    (val_main_v37 (F := Ideal) x0 x1 x2)
    (fun r a => by rw [pairRow_at', toInt_ofNat_small _ (by have := r.isLt; omega)]) r j).trans ?_
  rw [firstScatter_at, G_apply]
  refine congrArg (_ + ·) (Finset.sum_congr rfl fun a _ => ?_)
  rw [pairBin_at', massAbove_at]
  exact guarded_eq _ j _

/-- The reference's result array is the specification's function of the arguments. -/
theorem result_eq : val_main_v51 (F := Ideal) x0 x1 x2 = G x0 x1 x2 := by
  funext i
  obtain ⟨r, j, rfl⟩ : ∃ (r : Fin 1000000) (j : Fin 51), i = ix2 r j := ⟨i 0, i 1, eq_ix2 i⟩
  exact secondScatter_at x0 x1 x2 r j

/-! ## The run -/

/-- Every weakly fair execution of the reference terminates with its result at the specification's function of
    the arguments as launched, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v51)
          = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v51_eq m c).trans (result_eq _ _ _)), (h c).2⟩)
    (Cert.ReferenceIdeal.Value.run (F := Ideal) m ρ)

end Cert.ReferenceIdeal.Whole

end
-- ==== Proof.lean ====
/-
  The certificate of a categorical projection onto a fixed support of 51 atoms, written two ways.

  For each of 1000000 rows, every source atom's value is shifted by the row's reward and clamped into the support
  [-10, 10]; its fractional position there lies between two neighbouring bins, and the atom's probability mass is
  split between them in proportion to the distances (all of it to the bin below when the position is whole). A bin's
  result is the total mass sent to it. The kernel, one grid point per block of 400 rows, forms for every (source atom,
  bin) pair the mass if the atom's bin is that bin and zero otherwise, and sums over the source atoms; the reference
  scatters the masses into a zero array at (row, bin) index pairs, accumulating.

  The three frames: each program terminates without a fault and leaves its three argument arrays (rewards,
  probabilities, atoms) as it found them; the reference's is its run with the result's value dropped. The
  idealization rewrote no operation, so there is nothing to preserve. The equivalence over the extended reals: from
  memories that agree on the arguments both programs end with the result array equal to ONE function G of the three
  argument arrays (Cert.Projection.G: at (row, bin) the mass sent there from below plus the mass sent there from
  above) — the kernel because grid point t writes rows 400 t … 400 t + 399 of G and the points cover every row, the
  reference because its two accumulating scatters add, at (row, bin), exactly the masses of that row whose bin is that
  bin. No finiteness is used: the clamp makes every position a non-negative real whatever the inputs, and sums of
  extended reals may be reordered freely.
-/
import proofs.«136241_j42563125903609_1_alg».proof.Defs
import proofs.«136241_j42563125903609_1_alg».proof.Proof.Gen.Kernel
import proofs.«136241_j42563125903609_1_alg».proof.Proof.Gen.Kernel.Skeleton
import proofs.«136241_j42563125903609_1_alg».proof.Proof.Gen.Kernel.Launch
import proofs.«136241_j42563125903609_1_alg».proof.Proof.Gen.Kernel.Points
import proofs.«136241_j42563125903609_1_alg».proof.Proof.Gen.Kernel.Frame
import proofs.«136241_j42563125903609_1_alg».proof.Proof.Gen.KernelIdeal
import proofs.«136241_j42563125903609_1_alg».proof.Proof.Gen.KernelIdeal.Skeleton
import proofs.«136241_j42563125903609_1_alg».proof.Proof.Gen.KernelIdeal.Launch
import proofs.«136241_j42563125903609_1_alg».proof.Proof.Gen.KernelIdeal.Points
import proofs.«136241_j42563125903609_1_alg».proof.Proof.Gen.KernelIdeal.Frame
import proofs.«136241_j42563125903609_1_alg».proof.Proof.Gen.ReferenceIdeal
import proofs.«136241_j42563125903609_1_alg».proof.Proof.Gen.Pre_finite_inputs
import proofs.«136241_j42563125903609_1_alg».proof.Proof.Gen.KernelIdeal.Value
import proofs.«136241_j42563125903609_1_alg».proof.Proof.Gen.ReferenceIdeal.Run
import proofs.«136241_j42563125903609_1_alg».proof.Proof.Spec
import proofs.«136241_j42563125903609_1_alg».proof.Proof.KernelArray
import proofs.«136241_j42563125903609_1_alg».proof.Proof.RefValue
import Idealize.ShloMosaic.Adequacy
import Idealize.ShloMosaic.Init

noncomputable section

open Idealize.ShloMosaic Idealize.SL.Sem

/-! ## The claims -/

namespace Cert.Proof

/-- The kernel as printed runs and leaves its arguments unchanged: the generated frame. -/
theorem frame_Kernel : Cert.frame_Kernel := fun m ρ _ => Cert.Kernel.Gen.frame m ρ

/-- So does the kernel read at exact arithmetic. -/
theorem frame_KernelIdeal : Cert.frame_KernelIdeal := fun m ρ _ => Cert.KernelIdeal.Gen.frame m ρ

/-- The reference runs and leaves its arguments unchanged: its generated run, the result's value dropped. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- Both programs end at G of their argument arrays, and the argument arrays agree: the common result is G of the
    kernel's arguments. -/
theorem algebraic : Cert.algebraic_KernelIdeal_ReferenceIdeal := by
  intro m ρ m' ρ' _ hagree
  refine ⟨fun c => Cert.Projection.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨?_, (h c).2⟩)
    (Cert.ReferenceIdeal.Whole.run m' ρ')
  rw [(h c).1, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
